-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x512 .f32) (main_arg1 : FVec F S65536x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S65536x512 : Shape := ⟨2, ![65536, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1x65536x512 : Shape := ⟨3, ![1, 65536, 512]⟩
abbrev S2x65536x512 : Shape := ⟨3, ![2, 65536, 512]⟩

abbrev nBuf : Space → Nat
  | .hbm => 23
  | .vmem => 16
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S65536x512, .f32⟩
  | .hbm, ⟨19, _⟩ => ⟨S65536x512, .f32⟩
  | .hbm, ⟨20, _⟩ => ⟨S1x65536x512, .f32⟩
  | .hbm, ⟨21, _⟩ => ⟨S1x65536x512, .f32⟩
  | .hbm, ⟨22, _⟩ => ⟨S2x65536x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S512x512_S512x512_1_0 : S512x512.Transposes [1, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bcast_S65536x512_S1x65536x512_1_2 : S65536x512.BroadcastsInDim S1x65536x512 (![1, 2] : Fin 2 → Fin S1x65536x512.rank)
  concatenates_S1x65536x512_S1x65536x512_S2x65536x512_d0 : Shape.Concatenates [S1x65536x512, S1x65536x512] S2x65536x512 0
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S65536x512.size a
  hwx0_10 : ∀ i : grid0.Coords, EltTy.bits .f32 = 32 ∨ (Rect.block (s := S65536x512) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S65536x512.size a
  hwx0_11 : ∀ i : grid0.Coords, EltTy.bits .f32 = 32 ∨ (Rect.block (s := S65536x512) S1024x512.size (cc0_transform_11 i) (hinb0_11 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S1x65536x512 : Shape := ⟨3, ![1, 65536, 512]⟩
abbrev S2x65536x512 : Shape := ⟨3, ![2, 65536, 512]⟩

abbrev nBuf : Space → Nat
  | .hbm => 63
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S65536x512, .f32⟩
  | .hbm, ⟨11, _⟩ => ⟨S512x512, .f32⟩
  | .hbm, ⟨12, _⟩ => ⟨S65536x512, .f32⟩
  | .hbm, ⟨13, _⟩ => ⟨S1x512, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S_, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S512x512, .f32⟩
  | .hbm, ⟨25, _⟩ => ⟨S65536x512, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S512x512, .f32⟩
  | .hbm, ⟨38, _⟩ => ⟨S65536x512, .f32⟩
  | .hbm, ⟨39, _⟩ => ⟨S1x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S512x512, .f32⟩
  | .hbm, ⟨47, _⟩ => ⟨S65536x512, .f32⟩
  | .hbm, ⟨48, _⟩ => ⟨S1x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S65536x512, .f32⟩
  | .hbm, ⟨53, _⟩ => ⟨S_, .f32⟩
  | .hbm, ⟨54, _⟩ => ⟨S65536x512, .f32⟩
  | .hbm, ⟨55, _⟩ => ⟨S65536x512, .f32⟩
  | .hbm, ⟨56, _⟩ => ⟨S_, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S1x65536x512, .f32⟩
  | .hbm, ⟨61, _⟩ => ⟨S1x65536x512, .f32⟩
  | .hbm, ⟨62, _⟩ => ⟨S2x65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S65536x512_S1x65536x512_1_2 : S65536x512.BroadcastsInDim S1x65536x512 (![1, 2] : Fin 2 → Fin S1x65536x512.rank)
  concatenates_S1x65536x512_S1x65536x512_S2x65536x512_d0 : Shape.Concatenates [S1x65536x512, S1x65536x512] S2x65536x512 0
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.Spec.lean ====
/-
  The cell update both programs compute, stated once, index by index, on the extended reals.

  With z = x + s (row i of the two batch arrays added), a gate's pre-activation at row i and column j is
  the inner product of row i of z with row j of the gate's weight matrix, plus entry j of its bias:
      pre W b i j = (∑ k, (x i k + s i k) · W j k) + b j.
  The new long-term memory is  c i j = σ(pre Wf bf i j) + σ(pre Wi bi i j) · tanh(pre Wg bg i j),
  the new short-term memory is h i j = tanh(c i j) · σ(pre Wo bo i j), with σ u = 1 / (1 + e^(-u)).
  Nothing here needs an entry to be finite: only sums, products and the three functions are applied.
-/
import Idealize.ShloMosaic.PureOps.Ideal
import Idealize.ShloMosaic.Lib.ValueIdx

noncomputable section

namespace Cert.Lstm

open Idealize.ShloMosaic Idealize.ShloMosaic.ValueIdx

/-- A batch array: 65536 rows of 512 entries. -/
abbrev Batch := FVec Ideal (⟨2, ![65536, 512]⟩ : Shape) .f32
/-- A gate's weight matrix, as the caller passes it: entry (j, k) multiplies input feature k for output j. -/
abbrev Weight := FVec Ideal (⟨2, ![512, 512]⟩ : Shape) .f32
/-- A gate's bias. -/
abbrev Bias := FVec Ideal (⟨1, ![512]⟩ : Shape) .f32

/-- A gate's pre-activation at row `i`, column `j`. -/
def pre (x s : Batch) (W : Weight) (b : Bias) (i : Fin 65536) (j : Fin 512) : EReal :=
  (∑ k : Fin 512, (x (ix2 i k) + s (ix2 i k)) * W (ix2 j k)) + b (ix1 j)

/-- The new long-term memory at row `i`, column `j`. -/
def cell (x s : Batch) (Wf : Weight) (bf : Bias) (Wi : Weight) (bi : Bias) (Wg : Weight) (bg : Bias)
    (i : Fin 65536) (j : Fin 512) : EReal :=
  Ideal.logistic (pre x s Wf bf i j) + Ideal.logistic (pre x s Wi bi i j) * Ideal.tanh (pre x s Wg bg i j)

/-- The new short-term memory at row `i`, column `j`. -/
def hidden (x s : Batch) (Wf : Weight) (bf : Bias) (Wi : Weight) (bi : Bias) (Wg : Weight) (bg : Bias)
    (Wo : Weight) (bo : Bias) (i : Fin 65536) (j : Fin 512) : EReal :=
  Ideal.tanh (cell x s Wf bf Wi bi Wg bg i j) * Ideal.logistic (pre x s Wo bo i j)

/-- The long-term memory as an array. -/
def cellArr (x s : Batch) (Wf : Weight) (bf : Bias) (Wi : Weight) (bi : Bias) (Wg : Weight) (bg : Bias) : Batch :=
  fun i => cell x s Wf bf Wi bi Wg bg (i 0) (i 1)

/-- The short-term memory as an array. -/
def hiddenArr (x s : Batch) (Wf : Weight) (bf : Bias) (Wi : Weight) (bi : Bias) (Wg : Weight) (bg : Bias)
    (Wo : Weight) (bo : Bias) : Batch :=
  fun i => hidden x s Wf bf Wi bi Wg bg Wo bo (i 0) (i 1)

/-- The float 1.0 is the real one. -/
theorem ofBits_one : Ideal.ofBits .f32 0x3F800000#32 = (1 : EReal) := by
  simp [Ideal.ofBits, Ideal.ieee, -EReal.coe_mul]
  norm_num

/-- σ spelled with the float 1.0, a negation, an exponential, a sum and a quotient is the logistic function. -/
theorem logistic_spelled (u : EReal) :
    Ideal.div (Ideal.ofBits .f32 0x3F800000#32) (Ideal.ofBits .f32 0x3F800000#32 + Ideal.exp (-u)) = Ideal.logistic u := by
  rw [ofBits_one]; rfl

end Cert.Lstm

end
-- ==== Proof.Blocks.lean ====
/-
  What the kernel's region reads: each window's block at a grid step as entries of the argument arrays.

  The grid has 64 steps. At step t the x and s windows hold rows 1024·t … 1024·t + 1023 of their arrays; the four
  weight windows and the four bias windows hold their whole arrays at every step. The weight arrays the region
  finds are the caller's matrices transposed by the host lines before the region, the bias arrays the caller's
  biases given a leading axis of length one.
-/
import proofs.«118002_j21002390078075_1_alg».proof.Proof.Gen.KernelIdeal.Frame
import proofs.«118002_j21002390078075_1_alg».proof.Proof.Spec
import Idealize.ShloMosaic.Lib.ValueIdx
import Idealize.ShloMosaic.Lib.Pipeline.Value
import Idealize.ShloMosaic.Lib.StableHlo.Run

noncomputable section

namespace Cert.Lstm.Ker

open Idealize.ShloMosaic Idealize.ShloMosaic.TcCoe Idealize.ShloMosaic.ValueIdx Idealize.SL.Sem
open Cert.KernelIdeal Cert.KernelIdeal.Gen Cert.Lstm

variable (m : (ℓ : Loc nD τ sig) → Buf (Elt Ideal) ℓ)

/-- The block index of every window at every grid step: the batch windows and the two outputs move down one block
    of rows per step, the weights and biases stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Row `p` of the block of step `t` is row 1024·t + p of the array. -/
def rowOf (t : Fin cfg0.N) (p : Fin 1024) : Fin 65536 :=
  ⟨t.val * 1024 + p.val, by have h : cfg0.N = 64 := N_0; have := t.isLt; have := p.isLt; omega⟩

/-! ## The batch windows -/

theorem xblk_at (c : Dev nD) (t : Fin cfg0.N) (p : Fin 1024) (k : Fin 512) :
    (iblk m c 0 t : Vec Ideal S1024x512 .f32) (ix2 p k) = (V m c main_arg0 : Batch) (ix2 (rowOf t p) k) := by
  obtain ⟨⟨e0, e1⟩, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

theorem sblk_at (c : Dev nD) (t : Fin cfg0.N) (p : Fin 1024) (k : Fin 512) :
    (iblk m c 1 t : Vec Ideal S1024x512 .f32) (ix2 p k) = (V m c main_arg1 : Batch) (ix2 (rowOf t p) k) := by
  obtain ⟨-, ⟨e0, e1⟩, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 512 + 1 * k.val = k.val; rw [e1]; omega

/-! ## The weight and bias windows: the whole array at every step -/

theorem wf_blk (c : Dev nD) (t : Fin cfg0.N) :
    (iblk m c 2 t : Vec Ideal S512x512 .f32) = (V m c main_v0 : FVec Ideal S512x512 .f32) := by
  obtain ⟨-, -, ⟨e0, e1⟩, -⟩ := idx_facts t
  funext y
  unfold iblk
  rw [View.read_apply]
  show V m c main_v0 _ = V m c main_v0 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

theorem bf_blk (c : Dev nD) (t : Fin cfg0.N) :
    (iblk m c 3 t : Vec Ideal S1x512 .f32) = (V m c main_v4 : FVec Ideal S1x512 .f32) := by
  obtain ⟨-, -, -, ⟨e0, e1⟩, -⟩ := idx_facts t
  funext y
  unfold iblk
  rw [View.read_apply]
  show V m c main_v4 _ = V m c main_v4 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

theorem wi_blk (c : Dev nD) (t : Fin cfg0.N) :
    (iblk m c 4 t : Vec Ideal S512x512 .f32) = (V m c main_v1 : FVec Ideal S512x512 .f32) := by
  obtain ⟨-, -, -, -, ⟨e0, e1⟩, -⟩ := idx_facts t
  funext y
  unfold iblk
  rw [View.read_apply]
  show V m c main_v1 _ = V m c main_v1 _
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

theorem bi_blk (c : Dev nD) (t : Fin cfg0.N) :
    (iblk m c 5 t : Vec Ideal S1x512 .f32) = (V m c main_v5 : FVec Ideal S1x512 .f32) := by
  obtain ⟨-, -, -, -, -, ⟨e0, e1⟩, -⟩ := idx_facts t
  funext y
  unfold iblk
  rw [View.read_apply]
  show V m c main_v5 _ = V m c main_v5 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

theorem wg_blk (c : Dev nD) (t : Fin cfg0.N) :
    (iblk m c 6 t : Vec Ideal S512x512 .f32) = (V m c main_v2 : FVec Ideal S512x512 .f32) := by
  obtain ⟨-, -, -, -, -, -, ⟨e0, e1⟩, -⟩ := idx_facts t
  funext y
  unfold iblk
  rw [View.read_apply]
  show V m c main_v2 _ = V m c main_v2 _
  congr 1
  funext a
  apply Fin.ext
  match a with
  | ⟨0, _⟩ => show win0_6.index t (0 : Fin 2) * 512 + 1 * (y 0).val = (y 0).val; rw [e0]; omega
  | ⟨1, _⟩ => show win0_6.index t (1 : Fin 2) * 512 + 1 * (y 1).val = (y 1).val; rw [e1]; omega

theorem bg_blk (c : Dev nD) (t : Fin cfg0.N) :
    (iblk m c 7 t : Vec Ideal S1x512 .f32) = (V m c main_v6 : FVec Ideal S1x512 .f32) := by
  obtain ⟨-, -, -, -, -, -, -, ⟨e0, e1⟩, -⟩ := idx_facts t
  funext y
  unfold iblk
  rw [View.read_apply]
  show V m c main_v6 _ = V m c main_v6 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 512 + 1 * (y 1).val = (y 1).val; rw [e1]; omega

theorem wo_blk (c : Dev nD) (t : Fin cfg0.N) :
    (iblk m c 8 t : Vec Ideal S512x512 .f32) = (V m c main_v3 : FVec Ideal S512x512 .f32) := by
  obtain ⟨-, -, -, -, -, -, -, -, ⟨e0, e1⟩, -⟩ := idx_facts t
  funext y
  unfold iblk
  rw [View.read_apply]
  show V m c main_v3 _ = V m c main_v3 _
  congr 1
  funext a
  apply Fin.ext
  match a with
  | ⟨0, _⟩ => show win0_8.index t (0 : Fin 2) * 512 + 1 * (y 0).val = (y 0).val; rw [e0]; omega
  | ⟨1, _⟩ => show win0_8.index t (1 : Fin 2) * 512 + 1 * (y 1).val = (y 1).val; rw [e1]; omega

theorem bo_blk (c : Dev nD) (t : Fin cfg0.N) :
    (iblk m c 9 t : Vec Ideal S1x512 .f32) = (V m c main_v7 : FVec Ideal S1x512 .f32) := by
  obtain ⟨-, -, -, -, -, -, -, -, -, ⟨e0, e1⟩, -⟩ := idx_facts t
  funext y
  unfold iblk
  rw [View.read_apply]
  show V m c main_v7 _ = V m c main_v7 _
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 512 + 1 * (y 1).val = (y 1).val; rw [e1]; omega

/-! ## The host lines before the region -/

theorem wf_host (c : Dev nD) :
    (V m c main_v0 : FVec Ideal S512x512 .f32)
      = transpose S512x512 [1, 0] (m ((c.tc : Thread nD τ).loc main_arg2)) transposes_S512x512_S512x512_1_0 := by
  show StableHlo.after hostOps0 (fun b => m (c, b)) (Proc.devRef .tc main_v0) = _
  after_results

theorem wi_host (c : Dev nD) :
    (V m c main_v1 : FVec Ideal S512x512 .f32)
      = transpose S512x512 [1, 0] (m ((c.tc : Thread nD τ).loc main_arg4)) transposes_S512x512_S512x512_1_0 := by
  show StableHlo.after hostOps0 (fun b => m (c, b)) (Proc.devRef .tc main_v1) = _
  after_results

theorem wg_host (c : Dev nD) :
    (V m c main_v2 : FVec Ideal S512x512 .f32)
      = transpose S512x512 [1, 0] (m ((c.tc : Thread nD τ).loc main_arg6)) transposes_S512x512_S512x512_1_0 := by
  show StableHlo.after hostOps0 (fun b => m (c, b)) (Proc.devRef .tc main_v2) = _
  after_results

theorem wo_host (c : Dev nD) :
    (V m c main_v3 : FVec Ideal S512x512 .f32)
      = transpose S512x512 [1, 0] (m ((c.tc : Thread nD τ).loc main_arg8)) transposes_S512x512_S512x512_1_0 := by
  show StableHlo.after hostOps0 (fun b => m (c, b)) (Proc.devRef .tc main_v3) = _
  after_results

theorem bf_host (c : Dev nD) :
    (V m c main_v4 : FVec Ideal S1x512 .f32)
      = shapeCast S1x512 (m ((c.tc : Thread nD τ).loc main_arg3)) shapeCasts_S512_S1x512 := by
  show StableHlo.after hostOps0 (fun b => m (c, b)) (Proc.devRef .tc main_v4) = _
  after_results
  rfl

theorem bi_host (c : Dev nD) :
    (V m c main_v5 : FVec Ideal S1x512 .f32)
      = shapeCast S1x512 (m ((c.tc : Thread nD τ).loc main_arg5)) shapeCasts_S512_S1x512 := by
  show StableHlo.after hostOps0 (fun b => m (c, b)) (Proc.devRef .tc main_v5) = _
  after_results
  rfl

theorem bg_host (c : Dev nD) :
    (V m c main_v6 : FVec Ideal S1x512 .f32)
      = shapeCast S1x512 (m ((c.tc : Thread nD τ).loc main_arg7)) shapeCasts_S512_S1x512 := by
  show StableHlo.after hostOps0 (fun b => m (c, b)) (Proc.devRef .tc main_v6) = _
  after_results
  rfl

theorem bo_host (c : Dev nD) :
    (V m c main_v7 : FVec Ideal S1x512 .f32)
      = shapeCast S1x512 (m ((c.tc : Thread nD τ).loc main_arg9)) shapeCasts_S512_S1x512 := by
  show StableHlo.after hostOps0 (fun b => m (c, b)) (Proc.devRef .tc main_v7) = _
  after_results
  rfl

end Cert.Lstm.Ker

end
-- ==== Proof.Payload.lean ====
/-
  The kernel body's arithmetic, read at one entry of a block.

  Inside one grid step the body holds a 1024-row block of x and of s, the four transposed weight matrices whole
  and the four biases as one-row arrays. Changing the float format is the identity on the extended reals, so the
  product it feeds to the matrix unit at (p, q) is ∑ k, (x p k + s p k) · Wᵀ k q, accumulated onto zero; the bias
  row is broadcast down the block's rows. A gate's pre-activation inside the block is therefore
      bpre w b p q = (∑ k, (x p k + s p k) · w k q) + b 0 q,
  the first store holds σ(bpre wf bf) + σ(bpre wi bi) · tanh(bpre wg bg) and the second tanh of that times
  σ(bpre wo bo).
-/
import proofs.«118002_j21002390078075_1_alg».proof.Proof.Gen.KernelIdeal.Skeleton
import proofs.«118002_j21002390078075_1_alg».proof.Proof.Spec
import Idealize.ShloMosaic.Lib.ValueIdx
import Idealize.ShloMosaic.Lib.Pipeline.Value
import Idealize.ShloMosaic.PureOps.Ideal.Laws

noncomputable section

namespace Cert.Lstm.Ker

open Idealize.ShloMosaic Idealize.ShloMosaic.TcCoe Idealize.ShloMosaic.ValueIdx Cert.KernelIdeal Cert.KernelIdeal.Gen Cert.Lstm

/-! ## The matrix product at an entry -/

/-- The left operand is read at the output's row. -/
theorem lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- … and at the contraction position on its second axis. -/
theorem lhs_contr (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand is read at the contraction position on its first axis. -/
theorem rhs_contr (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- … and at the output's column. -/
theorem rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The matrix unit's product accumulated onto zero, at an entry: row of the left operand against column of the
    right, summed over the 512 shared positions. -/
theorem matmul_at (z : FVec Ideal S1024x512 .bf16) (w : FVec Ideal S512x512 .bf16) (i : S1024x512.Idx) :
    matmul dot_S1024x512_S512x512_S1024x512_1_0_0_1_n_n none z w (constant S1024x512 .f32 0x00000000#32) i
      = ∑ k : Fin 512, z (ix2 (i 0) k) * w (ix2 k (i 1)) := by
  show FloatOps.matmul dot_S1024x512_S512x512_S1024x512_1_0_0_1_n_n none z w (constant S1024x512 .f32 0x00000000#32) i = _
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx i ((ValueIdx.contrEquiv1 dot_S1024x512_S512x512_S1024x512_1_0_0_1_n_n 512 rfl rfl).symm k) = ix2 (i 0) k := funext fun a => Fin.ext (by
    match a with
    | ⟨0, _⟩ => exact lhs_row _ _
    | ⟨1, _⟩ => exact (lhs_contr _ _).trans hk)
  have er : dot_S1024x512_S512x512_S1024x512_1_0_0_1_n_n.rhsIdx i ((ValueIdx.contrEquiv1 dot_S1024x512_S512x512_S1024x512_1_0_0_1_n_n 512 rfl rfl).symm k) = ix2 k (i 1) := funext fun a => Fin.ext (by
    match a with
    | ⟨0, _⟩ => exact (rhs_contr _ _).trans hk
    | ⟨1, _⟩ => exact rhs_col _ _)
  rw [el, er]
  rfl

/-! ## The bias row under a block -/

/-- The one-row bias broadcast to the block reads, at (p, q), the row's entry q. -/
theorem bias_at (b : Vec Ideal S1x512 .f32) (i : S1024x512.Idx) :
    broadcastTo S1024x512 (shapeCast S1x512 b shapeCasts_S1x512_S1x512) broadcasts_S1x512_S1024x512 i = b (ix2 0 (i 1)) := by
  rw [shapeCast_self]
  exact broadcastTo_apply b broadcasts_S1x512_S1024x512 i (ix2 0 (i 1)) (fun a => by
    match a with
    | ⟨0, _⟩ => rfl
    | ⟨1, _⟩ => rfl)

/-! ## The gates inside a block -/

/-- A gate's pre-activation at row `p`, column `q` of a block, from the blocks the body loaded. -/
def bpre (x0 x1 : Vec Ideal S1024x512 .f32) (w : Vec Ideal S512x512 .f32) (b : Vec Ideal S1x512 .f32)
    (p : Fin 1024) (q : Fin 512) : EReal :=
  (∑ k : Fin 512, (x0 (ix2 p k) + x1 (ix2 p k)) * w (ix2 k q)) + b (ix2 0 q)

/-- The long-term memory the body stores, at an entry of the block. -/
def bcell (x0 x1 : Vec Ideal S1024x512 .f32) (wf : Vec Ideal S512x512 .f32) (bf : Vec Ideal S1x512 .f32)
    (wi : Vec Ideal S512x512 .f32) (bi : Vec Ideal S1x512 .f32) (wg : Vec Ideal S512x512 .f32) (bg : Vec Ideal S1x512 .f32)
    (p : Fin 1024) (q : Fin 512) : EReal :=
  Ideal.logistic (bpre x0 x1 wf bf p q) + Ideal.logistic (bpre x0 x1 wi bi p q) * Ideal.tanh (bpre x0 x1 wg bg p q)

/-- The matrix unit's product of the body's cast operands plus the broadcast bias is the pre-activation. -/
theorem gate_at (x0 x1 : Vec Ideal S1024x512 .f32) (w : Vec Ideal S512x512 .f32) (b : Vec Ideal S1x512 .f32)
    (p : Fin 1024) (q : Fin 512) :
    matmul dot_S1024x512_S512x512_S1024x512_1_0_0_1_n_n none (k0_pay2 x0 x1)
        (truncf .bf16 (shapeCast S512x512 w shapeCasts_S512x512_S512x512) bitsLt_bf16_f32) (constant S1024x512 .f32 0x00000000#32) (ix2 p q)
      + broadcastTo S1024x512 (shapeCast S1x512 b shapeCasts_S1x512_S1x512) broadcasts_S1x512_S1024x512 (ix2 p q)
      = bpre x0 x1 w b p q := by
  rw [matmul_at, bias_at, shapeCast_self]
  rfl

/-- The first store's payload at an entry. -/
theorem cell_at (x0 x1 : Vec Ideal S1024x512 .f32) (wf wi wg : Vec Ideal S512x512 .f32) (bf bi bg : Vec Ideal S1x512 .f32)
    (p : Fin 1024) (q : Fin 512) :
    k0_pay3 (F := Ideal) x0 x1 wf wi wg bf bi bg (ix2 p q) = bcell x0 x1 wf bf wi bi wg bg p q := by
  unfold bcell
  rw [← gate_at x0 x1 wf bf p q, ← gate_at x0 x1 wi bi p q, ← gate_at x0 x1 wg bg p q]
  rfl

/-- The second store's payload at an entry: tanh of the stored long-term memory times the output gate. -/
theorem hidden_at (c : FVec Ideal S1024x512 .f32) (x0 x1 : Vec Ideal S1024x512 .f32) (wo : Vec Ideal S512x512 .f32)
    (bo : Vec Ideal S1x512 .f32) (p : Fin 1024) (q : Fin 512) :
    k0_pay1 (F := Ideal) c (k0_pay4 x0 x1 wo) bo (ix2 p q) = Ideal.tanh (c (ix2 p q)) * Ideal.logistic (bpre x0 x1 wo bo p q) := by
  rw [← gate_at x0 x1 wo bo p q]
  rfl

/-! ## A block's entry against the whole arrays

If row `p` of the x and s blocks is row `i` of the batch arrays, column `q` of each block-resident weight matrix is
row `q` of the caller's matrix (the transposition), and entry `q` of each one-row bias is entry `q` of the caller's
bias, then the block's pre-activation, long-term and short-term memory at (p, q) are the specification's at (i, q). -/

theorem bpre_eq_pre (x0 x1 : Vec Ideal S1024x512 .f32) (w : Vec Ideal S512x512 .f32) (b : Vec Ideal S1x512 .f32)
    (X S : Batch) (W : Weight) (B : Bias) (p : Fin 1024) (q : Fin 512) (i : Fin 65536)
    (hx : ∀ k : Fin 512, x0 (ix2 p k) = X (ix2 i k)) (hs : ∀ k : Fin 512, x1 (ix2 p k) = S (ix2 i k))
    (hw : ∀ k : Fin 512, w (ix2 k q) = W (ix2 q k)) (hb : b (ix2 0 q) = B (ix1 q)) :
    bpre x0 x1 w b p q = pre X S W B i q := by
  unfold bpre pre
  rw [hb]
  congr 1
  exact Finset.sum_congr rfl fun k _ => by rw [hx k, hs k, hw k]

theorem bcell_eq_cell (x0 x1 : Vec Ideal S1024x512 .f32) (wf : Vec Ideal S512x512 .f32) (bf : Vec Ideal S1x512 .f32)
    (wi : Vec Ideal S512x512 .f32) (bi : Vec Ideal S1x512 .f32) (wg : Vec Ideal S512x512 .f32) (bg : Vec Ideal S1x512 .f32)
    (X S : Batch) (Wf : Weight) (Bf : Bias) (Wi : Weight) (Bi : Bias) (Wg : Weight) (Bg : Bias)
    (p : Fin 1024) (q : Fin 512) (i : Fin 65536)
    (hx : ∀ k : Fin 512, x0 (ix2 p k) = X (ix2 i k)) (hs : ∀ k : Fin 512, x1 (ix2 p k) = S (ix2 i k))
    (hwf : ∀ k : Fin 512, wf (ix2 k q) = Wf (ix2 q k)) (hbf : bf (ix2 0 q) = Bf (ix1 q))
    (hwi : ∀ k : Fin 512, wi (ix2 k q) = Wi (ix2 q k)) (hbi : bi (ix2 0 q) = Bi (ix1 q))
    (hwg : ∀ k : Fin 512, wg (ix2 k q) = Wg (ix2 q k)) (hbg : bg (ix2 0 q) = Bg (ix1 q)) :
    bcell x0 x1 wf bf wi bi wg bg p q = cell X S Wf Bf Wi Bi Wg Bg i q := by
  unfold bcell cell
  rw [bpre_eq_pre x0 x1 wf bf X S Wf Bf p q i hx hs hwf hbf, bpre_eq_pre x0 x1 wi bi X S Wi Bi p q i hx hs hwi hbi,
    bpre_eq_pre x0 x1 wg bg X S Wg Bg p q i hx hs hwg hbg]

end Cert.Lstm.Ker

end
-- ==== Proof.KernelValue.lean ====
/-
  The kernel's two output arrays after the region, and @main's result.

  Each grid step writes back one 1024-row block of each output; the 64 blocks tile the 65536 rows, so the first
  output array ends at the specification's long-term memory `cellArr` and the second at its short-term memory
  `hiddenArr`, both of the ten arguments as launched. The host lines after the region give each a leading axis of
  length one and join the two along it.
-/
import proofs.«118002_j21002390078075_1_alg».proof.Proof.Blocks
import proofs.«118002_j21002390078075_1_alg».proof.Proof.Payload

set_option maxRecDepth 16384

noncomputable section

namespace Cert.Lstm.Ker

open Idealize.ShloMosaic Idealize.ShloMosaic.TcCoe Idealize.ShloMosaic.ValueIdx Idealize.SL.Sem
open Idealize.ShloMosaic.Pipeline (Dat)
open Cert.KernelIdeal Cert.KernelIdeal.Gen Cert.Lstm

variable (m : (ℓ : Loc nD τ sig) → Buf (Elt Ideal) ℓ) (ρ : Dev nD → PrngReg)

theorem hz : (![0, 0] : Fin 2 → Nat) = fun _ => 0 := funext fun a => by fin_cases a <;> rfl

/-! ## The transposed weights and the one-row biases at an entry -/

theorem wT_at (W : Weight) (k q : Fin 512) :
    transpose S512x512 [1, 0] W transposes_S512x512_S512x512_1_0 (ix2 k q) = W (ix2 q k) :=
  transpose_apply [1, 0] W transposes_S512x512_S512x512_1_0 (ix2 k q) (ix2 q k) (fun b => match b with
    | ⟨0, _⟩ => rfl
    | ⟨1, _⟩ => rfl)

theorem bR_at (B : Bias) (q : Fin 512) :
    shapeCast S1x512 B shapeCasts_S512_S1x512 (ix2 0 q) = B (ix1 q) :=
  (shapeCast_addUnit_apply ![512] B shapeCasts_S512_S1x512 (ix2 0 q)).trans
    (congrArg B (funext fun a => by match a with | ⟨0, _⟩ => rfl))

/-! ## The output arrays, of the arguments as launched -/

/-- The long-term memory of the launch contents. -/
abbrev cellOf (c : Dev nD) : Batch :=
  cellArr (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- The short-term memory of the launch contents. -/
abbrev hiddenOf (c : Dev nD) : Batch :=
  hiddenArr (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-! ## One step's blocks against the launch contents -/

theorem x_row (c : Dev nD) (t : Fin cfg0.N) (p : Fin 1024) (k : Fin 512) :
    (iblk m c 0 t : Vec Ideal S1024x512 .f32) (ix2 p k) = (m ((c.tc : Thread nD τ).loc main_arg0) : Batch) (ix2 (rowOf t p) k) :=
  (xblk_at m c t p k).trans (congrFun (V_main_arg0 m c) _)

theorem s_row (c : Dev nD) (t : Fin cfg0.N) (p : Fin 1024) (k : Fin 512) :
    (iblk m c 1 t : Vec Ideal S1024x512 .f32) (ix2 p k) = (m ((c.tc : Thread nD τ).loc main_arg1) : Batch) (ix2 (rowOf t p) k) :=
  (sblk_at m c t p k).trans (congrFun (V_main_arg1 m c) _)

theorem wf_col (c : Dev nD) (t : Fin cfg0.N) (k q : Fin 512) :
    (iblk m c 2 t : Vec Ideal S512x512 .f32) (ix2 k q) = (m ((c.tc : Thread nD τ).loc main_arg2) : Weight) (ix2 q k) :=
  (congrFun (wf_blk m c t) (ix2 k q)).trans ((congrFun (wf_host m c) (ix2 k q)).trans (wT_at _ k q))
theorem wi_col (c : Dev nD) (t : Fin cfg0.N) (k q : Fin 512) :
    (iblk m c 4 t : Vec Ideal S512x512 .f32) (ix2 k q) = (m ((c.tc : Thread nD τ).loc main_arg4) : Weight) (ix2 q k) :=
  (congrFun (wi_blk m c t) (ix2 k q)).trans ((congrFun (wi_host m c) (ix2 k q)).trans (wT_at _ k q))
theorem wg_col (c : Dev nD) (t : Fin cfg0.N) (k q : Fin 512) :
    (iblk m c 6 t : Vec Ideal S512x512 .f32) (ix2 k q) = (m ((c.tc : Thread nD τ).loc main_arg6) : Weight) (ix2 q k) :=
  (congrFun (wg_blk m c t) (ix2 k q)).trans ((congrFun (wg_host m c) (ix2 k q)).trans (wT_at _ k q))
theorem wo_col (c : Dev nD) (t : Fin cfg0.N) (k q : Fin 512) :
    (iblk m c 8 t : Vec Ideal S512x512 .f32) (ix2 k q) = (m ((c.tc : Thread nD τ).loc main_arg8) : Weight) (ix2 q k) :=
  (congrFun (wo_blk m c t) (ix2 k q)).trans ((congrFun (wo_host m c) (ix2 k q)).trans (wT_at _ k q))

theorem bf_ent (c : Dev nD) (t : Fin cfg0.N) (q : Fin 512) :
    (iblk m c 3 t : Vec Ideal S1x512 .f32) (ix2 0 q) = (m ((c.tc : Thread nD τ).loc main_arg3) : Bias) (ix1 q) :=
  (congrFun (bf_blk m c t) (ix2 0 q)).trans ((congrFun (bf_host m c) (ix2 0 q)).trans (bR_at _ q))
theorem bi_ent (c : Dev nD) (t : Fin cfg0.N) (q : Fin 512) :
    (iblk m c 5 t : Vec Ideal S1x512 .f32) (ix2 0 q) = (m ((c.tc : Thread nD τ).loc main_arg5) : Bias) (ix1 q) :=
  (congrFun (bi_blk m c t) (ix2 0 q)).trans ((congrFun (bi_host m c) (ix2 0 q)).trans (bR_at _ q))
theorem bg_ent (c : Dev nD) (t : Fin cfg0.N) (q : Fin 512) :
    (iblk m c 7 t : Vec Ideal S1x512 .f32) (ix2 0 q) = (m ((c.tc : Thread nD τ).loc main_arg7) : Bias) (ix1 q) :=
  (congrFun (bg_blk m c t) (ix2 0 q)).trans ((congrFun (bg_host m c) (ix2 0 q)).trans (bR_at _ q))
theorem bo_ent (c : Dev nD) (t : Fin cfg0.N) (q : Fin 512) :
    (iblk m c 9 t : Vec Ideal S1x512 .f32) (ix2 0 q) = (m ((c.tc : Thread nD τ).loc main_arg9) : Bias) (ix1 q) :=
  (congrFun (bo_blk m c t) (ix2 0 q)).trans ((congrFun (bo_host m c) (ix2 0 q)).trans (bR_at _ q))

/-- The first store of step `t`, at (p, q), is the long-term memory at row 1024·t + p, column q. -/
theorem cell_step (c : Dev nD) (t : Fin cfg0.N) (p : Fin 1024) (q : Fin 512) :
    k0_pay3 (F := Ideal) (iblk m c 0 t) (iblk m c 1 t) (iblk m c 2 t) (iblk m c 4 t) (iblk m c 6 t) (iblk m c 3 t) (iblk m c 5 t) (iblk m c 7 t) (ix2 p q)
      = cellOf m c (ix2 (rowOf t p) q) :=
  (cell_at (iblk m c 0 t) (iblk m c 1 t) (iblk m c 2 t) (iblk m c 4 t) (iblk m c 6 t) (iblk m c 3 t) (iblk m c 5 t) (iblk m c 7 t) p q).trans
    (bcell_eq_cell (iblk m c 0 t) (iblk m c 1 t) (iblk m c 2 t) (iblk m c 3 t) (iblk m c 4 t) (iblk m c 5 t) (iblk m c 6 t) (iblk m c 7 t)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      p q (rowOf t p) (x_row m c t p) (s_row m c t p) (fun k => wf_col m c t k q) (bf_ent m c t q)
      (fun k => wi_col m c t k q) (bi_ent m c t q) (fun k => wg_col m c t k q) (bg_ent m c t q))

/-- The second store of step `t`, at (p, q), is the short-term memory at row 1024·t + p, column q. -/
theorem hidden_step (c : Dev nD) (t : Fin cfg0.N) (p : Fin 1024) (q : Fin 512) :
    k0_pay1 (F := Ideal) (k0_pay3 (iblk m c 0 t) (iblk m c 1 t) (iblk m c 2 t) (iblk m c 4 t) (iblk m c 6 t) (iblk m c 3 t) (iblk m c 5 t) (iblk m c 7 t))
        (k0_pay4 (iblk m c 0 t) (iblk m c 1 t) (iblk m c 8 t)) (iblk m c 9 t) (ix2 p q)
      = hiddenOf m c (ix2 (rowOf t p) q) := by
  refine (hidden_at (k0_pay3 (iblk m c 0 t) (iblk m c 1 t) (iblk m c 2 t) (iblk m c 4 t) (iblk m c 6 t) (iblk m c 3 t) (iblk m c 5 t) (iblk m c 7 t))
    (iblk m c 0 t) (iblk m c 1 t) (iblk m c 8 t) (iblk m c 9 t) p q).trans ?_
  rw [cell_step m c t p q, bpre_eq_pre (iblk m c 0 t) (iblk m c 1 t) (iblk m c 8 t) (iblk m c 9 t)
    (m ((c.tc : Thread nD τ).loc main_arg0)) (m ((c.tc : Thread nD τ).loc main_arg1))
    (m ((c.tc : Thread nD τ).loc main_arg8)) (m ((c.tc : Thread nD τ).loc main_arg9))
    p q (rowOf t p) (x_row m c t p) (s_row m c t p) (fun k => wo_col m c t k q) (bo_ent m c t q)]
  rfl

/-! ## What a step writes back, and the arrays after the last step -/

/-- Entry (p, q) of an output block of step `t` lies at row 1024·t + p, column q of the output array. -/
theorem cell_emb (t : Fin cfg0.N) (p : Fin 1024) (q : Fin 512) :
    ((cfg0.win 10).blk t).view.emb (ix2 p q) = (ix2 (rowOf t p) q : S65536x512.Idx) := by
  obtain ⟨-, -, -, -, -, -, -, -, -, -, ⟨e0, e1⟩, -⟩ := idx_facts t
  funext a
  apply Fin.ext
  match a with
  | ⟨0, _⟩ => show win0_10.index t (0 : Fin 2) * 1024 + 1 * p.val = t.val * 1024 + p.val; rw [e0]; omega
  | ⟨1, _⟩ => show win0_10.index t (1 : Fin 2) * 512 + 1 * q.val = q.val; rw [e1]; omega

theorem hidden_emb (t : Fin cfg0.N) (p : Fin 1024) (q : Fin 512) :
    ((cfg0.win 11).blk t).view.emb (ix2 p q) = (ix2 (rowOf t p) q : S65536x512.Idx) := by
  obtain ⟨-, -, -, -, -, -, -, -, -, -, -, ⟨e0, e1⟩⟩ := idx_facts t
  funext a
  apply Fin.ext
  match a with
  | ⟨0, _⟩ => show win0_11.index t (0 : Fin 2) * 1024 + 1 * p.val = t.val * 1024 + p.val; rw [e0]; omega
  | ⟨1, _⟩ => show win0_11.index t (1 : Fin 2) * 512 + 1 * q.val = q.val; rw [e1]; omega

/-- Step `t` writes back block `t` of the long-term memory. -/
theorem flushed_cell (c : Dev nD) (t : Fin cfg0.N) :
    (dats m 0 c).flushed 10 t = ((cfg0.win 10).blk t).view.read (Elt Ideal) (cellOf m c) := by
  show (cfg0.win 10).cut (grid0.coords t) ((dats m 0 c).after 10 t) = _
  rw [after0_10]
  unfold out0_10
  rw [View.canon_unit_zero hz]
  simp only [View.ld_unit_zero (S := S1024x512) hz, View.ld_unit_zero (S := S512x512) hz, View.ld_unit_zero (S := S1x512) hz]
  refine funext fun (j : S1024x512.Idx) => ?_
  obtain ⟨p, q, rfl⟩ : ∃ (p : Fin 1024) (q : Fin 512), j = ix2 p q := ⟨j 0, j 1, eq_ix2 j⟩
  refine (cell_step m c t p q).trans ?_
  show cellOf m c (ix2 (rowOf t p) q) = cellOf m c (((cfg0.win 10).blk t).view.emb (ix2 p q))
  rw [cell_emb]

/-- Step `t` writes back block `t` of the short-term memory. -/
theorem flushed_hidden (c : Dev nD) (t : Fin cfg0.N) :
    (dats m 0 c).flushed 11 t = ((cfg0.win 11).blk t).view.read (Elt Ideal) (hiddenOf m c) := by
  show (cfg0.win 11).cut (grid0.coords t) ((dats m 0 c).after 11 t) = _
  rw [after0_11]
  unfold out0_11
  rw [View.canon_unit_zero hz]
  simp only [View.ld_unit_zero (S := S1024x512) hz, View.ld_unit_zero (S := S512x512) hz, View.ld_unit_zero (S := S1x512) hz]
  refine funext fun (j : S1024x512.Idx) => ?_
  obtain ⟨p, q, rfl⟩ : ∃ (p : Fin 1024) (q : Fin 512), j = ix2 p q := ⟨j 0, j 1, eq_ix2 j⟩
  refine (hidden_step m c t p q).trans ?_
  show hiddenOf m c (ix2 (rowOf t p) q) = hiddenOf m c (((cfg0.win 11).blk t).view.emb (ix2 p q))
  rw [hidden_emb]

/-- An index of the first output array is in step `t`'s block iff each coordinate is in the block's range. -/
theorem mem_cell_blk (t : Fin cfg0.N) (i : S65536x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v8_0).slice (win0_10.rect t)).set ↔ _
  rw [View.set_slice_whole, Rect.mem_set_unit]
  exact Iff.rfl

theorem mem_hidden_blk (t : Fin cfg0.N) (i : S65536x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v8_1).slice (win0_11.rect t)).set ↔ _
  rw [View.set_slice_whole, Rect.mem_set_unit]
  exact Iff.rfl

/-- The step whose block holds row `r`: r / 1024. -/
def stepOf (i : S65536x512.Idx) : Fin cfg0.N :=
  ⟨(i 0).val / 1024, by have h : cfg0.N = 64 := N_0; have : (i 0).val < 65536 := (i 0).isLt; omega⟩

/-- Every entry of the first output array is written back by some step. -/
theorem cell_cover (i : S65536x512.Idx) :
    ∃ t : Fin cfg0.N, (cfg0.win 10).flush t = true ∧ i ∈ ((cfg0.win 10).blk t).view.set := by
  refine ⟨stepOf i, flush0_10 (stepOf i), ?_⟩
  rw [mem_cell_blk]
  obtain ⟨-, -, -, -, -, -, -, -, -, -, ⟨e0, e1⟩, -⟩ := idx_facts (stepOf i)
  have ht : (stepOf i).val = (i 0).val / 1024 := rfl
  have hi1 : (i 1).val < 512 := (i 1).isLt
  intro a
  match a with
  | ⟨0, _⟩ => show win0_10.index (stepOf i) (0 : Fin 2) * 1024 ≤ (i 0).val ∧ (i 0).val < win0_10.index (stepOf i) (0 : Fin 2) * 1024 + 1024; rw [e0, ht]; omega
  | ⟨1, _⟩ => show win0_10.index (stepOf i) (1 : Fin 2) * 512 ≤ (i 1).val ∧ (i 1).val < win0_10.index (stepOf i) (1 : Fin 2) * 512 + 512; rw [e1]; omega

theorem hidden_cover (i : S65536x512.Idx) :
    ∃ t : Fin cfg0.N, (cfg0.win 11).flush t = true ∧ i ∈ ((cfg0.win 11).blk t).view.set := by
  refine ⟨stepOf i, flush0_11 (stepOf i), ?_⟩
  rw [mem_hidden_blk]
  obtain ⟨-, -, -, -, -, -, -, -, -, -, -, ⟨e0, e1⟩⟩ := idx_facts (stepOf i)
  have ht : (stepOf i).val = (i 0).val / 1024 := rfl
  have hi1 : (i 1).val < 512 := (i 1).isLt
  intro a
  match a with
  | ⟨0, _⟩ => show win0_11.index (stepOf i) (0 : Fin 2) * 1024 ≤ (i 0).val ∧ (i 0).val < win0_11.index (stepOf i) (0 : Fin 2) * 1024 + 1024; rw [e0, ht]; omega
  | ⟨1, _⟩ => show win0_11.index (stepOf i) (1 : Fin 2) * 512 ≤ (i 1).val ∧ (i 1).val < win0_11.index (stepOf i) (1 : Fin 2) * 512 + 512; rw [e1]; omega

/-- After the last step the first output array is the long-term memory … -/
theorem final_cell (c : Dev nD) : (dats m 0 c).arrAt 10 cfg0.N = cellOf m c :=
  (dats m 0 c).arrAt_eq_of_cover 10 (cellOf m c) (fun t _ => flushed_cell m c t) cell_cover

/-- … and the second the short-term memory. -/
theorem final_hidden (c : Dev nD) : (dats m 0 c).arrAt 11 cfg0.N = hiddenOf m c :=
  (dats m 0 c).arrAt_eq_of_cover 11 (hiddenOf m c) (fun t _ => flushed_hidden m c t) hidden_cover

/-! ## @main's result -/

/-- The two memories stacked: each given a leading axis of length one, the long-term one first. -/
def stack (a b : Batch) : FVec Ideal S2x65536x512 .f32 :=
  concatenate S2x65536x512 0 [⟨S1x65536x512, broadcastInDim S1x65536x512 ![1, 2] bcast_S65536x512_S1x65536x512_1_2 a⟩,
    ⟨S1x65536x512, broadcastInDim S1x65536x512 ![1, 2] bcast_S65536x512_S1x65536x512_1_2 b⟩] concatenates_S1x65536x512_S1x65536x512_S2x65536x512_d0

/-- The host lines after the region read the two output arrays as the region left them: the result is the stack of
    the long-term and the short-term memory. -/
theorem result_eq (c : Dev nD) :
    Pipeline.afterTail₀ cfgs (dats m) 0 (V0 m) [hostOps1] c main_v11 = stack (cellOf m c) (hiddenOf m c) := by
  unfold Pipeline.afterTail₀
  show StableHlo.after hostOps1 _ (Proc.devRef .tc main_v11) = _
  after_results
  have e10 : Pipeline.withArrays (cfgs 0).spec c (V0 m c) (fun w => (dats m 0 c).arrAt w (cfgs 0).N) (Proc.devRef .tc main_v8_0) = cellOf m c :=
    (Pipeline.withArrays_arr spec0 launch0.win.arr_inj c _ _ 10).trans (final_cell m c)
  have e11 : Pipeline.withArrays (cfgs 0).spec c (V0 m c) (fun w => (dats m 0 c).arrAt w (cfgs 0).N) (Proc.devRef .tc main_v8_1) = hiddenOf m c :=
    (Pipeline.withArrays_arr spec0 launch0.win.arr_inj c _ _ 11).trans (final_hidden m c)
  rw [e10, e11]
  rfl

/-- Every weakly fair execution of the kernel's program ends with the result at the stacked memories of the launch
    contents and the ten arguments unchanged. -/
theorem run : θ_run defs (onTc (τ := τ) (main (F := Ideal))) ⟨m, fun _ => 0, ρ⟩ fun r => ∀ c : Dev nD,
      r.2.mem ((c.tc : Thread nD τ).loc main_v11) = stack (cellOf m c) (hiddenOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Lstm.Ker

end
-- ==== Proof.RefValue.lean ====
/-
  The reference, read at an index: its long-term memory stage and its short-term memory stage are the
  specification's `cellArr` and `hiddenArr` of the ten argument arrays.

  The reference transposes each weight matrix and contracts z = x + s with it over the shared axis, so its
  product at (i, j) is ∑ k, z i k · W j k; it broadcasts the bias along the rows; and it spells σ as
  1 / (1 + exp (-u)) with the float 1.0, which is the logistic function on the extended reals.
-/
import proofs.«118002_j21002390078075_1_alg».proof.Proof.Gen.ReferenceIdeal.Read
import proofs.«118002_j21002390078075_1_alg».proof.Proof.Spec

noncomputable section

namespace Cert.Lstm.Ref

open Idealize.ShloMosaic Idealize.ShloMosaic.ValueIdx Cert.ReferenceIdeal Cert.ReferenceIdeal.Read Cert.Lstm

/-- The forget gate's pre-activation: the contraction with the transposed weights plus the broadcast bias. -/
theorem pre_forget (x s : Batch) (W : Weight) (b : Bias) (i : S65536x512.Idx) :
    val_main_v5 (F := Ideal) x s W b i = pre x s W b (i 0) (i 1) := by
  rw [val_main_v5_apply, val_main_v2_apply, val_main_v4_apply, val_main_v3_apply]
  unfold pre
  rw [Ideal.addf_def]
  congr 1
  · refine Finset.sum_congr rfl fun k _ => ?_
    rw [val_main_v0_apply, val_main_v1_apply, Ideal.addf_def]
    have e1 : lidx_main_v2 i k = ix2 (i 0) k :=
      funext fun a => Fin.ext (by match a with | ⟨0, _⟩ => rfl | ⟨1, _⟩ => rfl)
    have e2 : idx_main_v1 (ridx_main_v2 i k) = ix2 (i 1) k :=
      funext fun a => Fin.ext (by match a with | ⟨0, _⟩ => rfl | ⟨1, _⟩ => rfl)
    rw [e1, e2]
    rfl
  · exact congrArg b (funext fun a => Fin.ext (by match a with | ⟨0, _⟩ => rfl))

/-- The input gate's, the candidate's and the output gate's pre-activations are the same text over their own
    weights and bias. -/
theorem pre_input (x s : Batch) (W : Weight) (b : Bias) (i : S65536x512.Idx) :
    val_main_v16 (F := Ideal) x s W b i = pre x s W b (i 0) (i 1) := pre_forget x s W b i
theorem pre_cand (x s : Batch) (W : Weight) (b : Bias) (i : S65536x512.Idx) :
    val_main_v27 (F := Ideal) x s W b i = pre x s W b (i 0) (i 1) := pre_forget x s W b i
theorem pre_output (x s : Batch) (W : Weight) (b : Bias) (i : S65536x512.Idx) :
    val_main_v36 (F := Ideal) x s W b i = pre x s W b (i 0) (i 1) := pre_forget x s W b i

/-- The forget gate: 1.0 / (1.0 + exp (-u)) is σ u. -/
theorem sig_forget (x s : Batch) (W : Weight) (b : Bias) (i : S65536x512.Idx) :
    val_main_v11 (F := Ideal) x s W b i = Ideal.logistic (val_main_v5 (F := Ideal) x s W b i) := by
  rw [val_main_v11_apply, val_main_v10_apply, val_main_cst_0_apply, val_main_v9_apply, val_main_v8_apply,
    val_main_cst_apply, val_main_v7_apply, val_main_v6_apply]
  exact logistic_spelled _
theorem sig_input (x s : Batch) (W : Weight) (b : Bias) (i : S65536x512.Idx) :
    val_main_v22 (F := Ideal) x s W b i = Ideal.logistic (val_main_v16 (F := Ideal) x s W b i) := sig_forget x s W b i
theorem sig_output (x s : Batch) (W : Weight) (b : Bias) (i : S65536x512.Idx) :
    val_main_v42 (F := Ideal) x s W b i = Ideal.logistic (val_main_v36 (F := Ideal) x s W b i) := sig_forget x s W b i

/-- The reference's long-term memory stage is `cellArr`. -/
theorem cell_eq (x s : Batch) (Wf : Weight) (bf : Bias) (Wi : Weight) (bi : Bias) (Wg : Weight) (bg : Bias) :
    val_main_v30 (F := Ideal) x s Wf bf Wi bi Wg bg = cellArr x s Wf bf Wi bi Wg bg := by
  funext i
  rw [val_main_v30_apply, val_main_v29_apply, val_main_v28_apply, sig_forget, sig_input, pre_forget, pre_input, pre_cand]
  rfl

/-- The reference's short-term memory stage is `hiddenArr`. -/
theorem hidden_eq (x s : Batch) (Wf : Weight) (bf : Bias) (Wi : Weight) (bi : Bias) (Wg : Weight) (bg : Bias)
    (Wo : Weight) (bo : Bias) :
    val_main_v43 (F := Ideal) x s Wf bf Wi bi Wg bg Wo bo = hiddenArr x s Wf bf Wi bi Wg bg Wo bo := by
  funext i
  rw [val_main_v43_apply, val_main_v31_apply, cell_eq, sig_output, pre_output]
  rfl

end Cert.Lstm.Ref

end
-- ==== Proof.lean ====
/-
  An LSTM-style cell update, fused into one Pallas kernel tiled over the batch, against its jnp reference, over
  the extended reals.

  With z = x + s, both programs compute, for each of the 65536 rows i and 512 columns j,
      c i j = σ(pre Wf bf i j) + σ(pre Wi bi i j) · tanh(pre Wg bg i j),
      h i j = tanh(c i j) · σ(pre Wo bo i j),       pre W b i j = (∑ k, z i k · W j k) + b j,
  and return c and h stacked along a new leading axis.

  The kernel receives the weight matrices transposed by the host and the biases as one-row arrays, adds x and s
  block by block (1024 rows per grid step, 64 steps), changes the float format of z and of the weights before the
  four matrix products — the identity on the extended reals —, accumulates each product onto zero and applies
  the logistic function as one operation. The reference contracts z with each transposed matrix as a whole and
  spells σ u as 1.0 / (1.0 + exp (-u)). On the extended reals the logistic function IS that quotient, a product
  accumulated onto zero is the plain sum over the contracted axis, and the tiling changes nothing: entry (p, q) of
  step t's block is entry (1024·t + p, q) of the array. No law that needs finite entries is used, so the
  precondition is never opened.

  The frames of the two kernel programs are the generated ones; the reference's frame is its generated run with the
  result dropped; the idealization rewrote nothing, so `preserves` is trivial.
-/
import proofs.«118002_j21002390078075_1_alg».proof.Defs
import proofs.«118002_j21002390078075_1_alg».proof.Proof.Gen.Kernel
import proofs.«118002_j21002390078075_1_alg».proof.Proof.Gen.Kernel.Skeleton
import proofs.«118002_j21002390078075_1_alg».proof.Proof.Gen.Kernel.Launch
import proofs.«118002_j21002390078075_1_alg».proof.Proof.Gen.Kernel.Points
import proofs.«118002_j21002390078075_1_alg».proof.Proof.Gen.Kernel.Frame
import proofs.«118002_j21002390078075_1_alg».proof.Proof.Gen.KernelIdeal
import proofs.«118002_j21002390078075_1_alg».proof.Proof.Gen.KernelIdeal.Skeleton
import proofs.«118002_j21002390078075_1_alg».proof.Proof.Gen.KernelIdeal.Launch
import proofs.«118002_j21002390078075_1_alg».proof.Proof.Gen.KernelIdeal.Points
import proofs.«118002_j21002390078075_1_alg».proof.Proof.Gen.KernelIdeal.Frame
import proofs.«118002_j21002390078075_1_alg».proof.Proof.Gen.ReferenceIdeal
import proofs.«118002_j21002390078075_1_alg».proof.Proof.Gen.Pre_finite_inputs
import proofs.«118002_j21002390078075_1_alg».proof.Proof.Gen.ReferenceIdeal.Run
import proofs.«118002_j21002390078075_1_alg».proof.Proof.Gen.ReferenceIdeal.Read
import Idealize.ShloMosaic.Adequacy
import Idealize.ShloMosaic.Init
import proofs.«118002_j21002390078075_1_alg».proof.Proof.KernelValue
import proofs.«118002_j21002390078075_1_alg».proof.Proof.RefValue

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the stack of the specification's long-term and short-term memory of the arguments: the
    kernel's output arrays block by block (`Cert.Lstm.Ker.run`), the reference's two stages index by index
    (`Cert.Lstm.Ref.cell_eq`, `hidden_eq`), and the arguments agree. -/
theorem algebraic : Cert.algebraic_KernelIdeal_ReferenceIdeal := by
  intro m ρ m' ρ' _ hagree
  refine ⟨fun c => Cert.Lstm.Ker.stack (Cert.Lstm.Ker.cellOf m c) (Cert.Lstm.Ker.hiddenOf m c), Cert.Lstm.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v46_eq]
  unfold Cert.ReferenceIdeal.Read.val_main_v46 Cert.ReferenceIdeal.Read.val_main_v44 Cert.ReferenceIdeal.Read.val_main_v45
  rw [Cert.Lstm.Ref.cell_eq, Cert.Lstm.Ref.hidden_eq, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
